-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S8192 : Shape := ⟨1, ![8192]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S4096x4096x1 : Shape := ⟨3, ![4096, 4096, 1]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 31
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S8192, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S4096x4096, .f32⟩
  | .hbm, ⟨26, _⟩ => ⟨S4096x4096, .f32⟩
  | .hbm, ⟨27, _⟩ => ⟨S16384x4096, .bf16⟩
  | .hbm, ⟨28, _⟩ => ⟨S4096x4096, .bf16⟩
  | .hbm, ⟨29, _⟩ => ⟨S1x4096, .f32⟩
  | .hbm, ⟨30, _⟩ => ⟨S16384x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  concatenates_S4096_S4096_S8192_d0 : Shape.Concatenates [S4096, S4096] S8192 0
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S8192_S4096x4096x1_S4096x4096_n_0_n_n_0_2_1_wf : GatherDims.WF S8192 S4096x4096x1 S4096x4096 [] [0] [] [0] [] 2 ![1]
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .bf16 = 32 ∨ (Rect.block (s := S16384x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def gather_S8192_S4096x4096x1_S4096x4096_n_0_n_n_0_2_1 : GatherDims S8192 S4096x4096x1 S4096x4096 where
  offsetDims := []
  collapsedSliceDims := [0]
  operandBatchingDims := []
  startIndicesBatchingDims := []
  startIndexMap := [0]
  indexVectorDim := 2
  sliceSizes := ![1]
  wf := gather_S8192_S4096x4096x1_S4096x4096_n_0_n_n_0_2_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v20) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096 : Shape := ⟨1, ![4096]⟩
abbrev S8192 : Shape := ⟨1, ![8192]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S4096x4096x1 : Shape := ⟨3, ![4096, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S8192, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S4096x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  concatenates_S4096_S4096_S8192_d0 : Shape.Concatenates [S4096, S4096] S8192 0
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S1x4096_S16384x4096_0_1 : S1x4096.BroadcastsInDim S16384x4096 (![0, 1] : Fin 2 → Fin S16384x4096.rank)
  gather_S8192_S4096x4096x1_S4096x4096_n_0_n_n_0_2_1_wf : GatherDims.WF S8192 S4096x4096x1 S4096x4096 [] [0] [] [0] [] 2 ![1]
  dot_S16384x4096_S4096x4096_S16384x4096_1_1_0_0_n_n_wf : DotDims.WF S16384x4096 S4096x4096 S16384x4096 [1] [1] [0] [0] [] []

variable [Facts₀]

def gather_S8192_S4096x4096x1_S4096x4096_n_0_n_n_0_2_1 : GatherDims S8192 S4096x4096x1 S4096x4096 where
  offsetDims := []
  collapsedSliceDims := [0]
  operandBatchingDims := []
  startIndicesBatchingDims := []
  startIndexMap := [0]
  indexVectorDim := 2
  sliceSizes := ![1]
  wf := gather_S8192_S4096x4096x1_S4096x4096_n_0_n_n_0_2_1_wf
def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.LinearSpec.lean ====
/-
  A linear layer with bias over the extended reals, entry by entry.

  For a matrix `X` of shape [M, K], a matrix `Wt` of shape [K, N] and a bias row `Bv` of shape [1, N],
  the layer's entry at row `r`, column `c` is the inner product of row `r` of `X` with column `c` of `Wt`,
  plus the bias at `c`.  The inner product is taken as a sum over the first `n` contraction positions
  (`pdot`), so that the sum accumulated block by block along the contraction axis is the same object as the whole
  sum: splitting a range is all the algebra there is, and it holds in any additive commutative monoid, the
  extended reals included (no finiteness is asked of the entries).

  Arrays are read through `at2`, a total reading by natural-number coordinates (zero outside the array), so that
  positions are compared by arithmetic on naturals.
-/
import Idealize.ShloMosaic.Lib.ValueIdx
import Idealize.ShloMosaic.PureOps.Ideal
import Mathlib.Algebra.BigOperators.Fin
import Mathlib.Data.EReal.Basic

noncomputable section

open scoped BigOperators
open Idealize.ShloMosaic Idealize.ShloMosaic.ValueIdx

namespace Cert.LinearBias

/-- A rank-2 array read at natural-number coordinates: the entry when both are inside, zero otherwise. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

/-- Inside the array the total reading is the entry. -/
theorem at2_ix2 {n0 n1 : ℕ} (A : (⟨2, ![n0, n1]⟩ : Shape).Idx → EReal) (a : Fin n0) (b : Fin n1) :
    A (ix2 a b) = at2 A a.val b.val := by
  unfold at2
  rw [dif_pos ⟨a.isLt, b.isLt⟩]

/-- The same, from coordinates given as naturals with their bounds. -/
theorem at2_of_lt {n0 n1 : ℕ} (A : (⟨2, ![n0, n1]⟩ : Shape).Idx → EReal) {a b : ℕ} (ha : a < n0) (hb : b < n1) :
    at2 A a b = A (ix2 ⟨a, ha⟩ ⟨b, hb⟩) := by
  unfold at2
  rw [dif_pos ⟨ha, hb⟩]

/-- The inner product of row `r` of `X` with column `c` of `Wt` over the first `n` contraction positions. -/
def pdot {M K N : ℕ} (X : (⟨2, ![M, K]⟩ : Shape).Idx → EReal) (Wt : (⟨2, ![K, N]⟩ : Shape).Idx → EReal)
    (r c n : ℕ) : EReal :=
  ∑ j ∈ Finset.range n, at2 X r j * at2 Wt j c

/-- Over no positions the inner product is zero. -/
theorem pdot_zero {M K N : ℕ} (X : (⟨2, ![M, K]⟩ : Shape).Idx → EReal) (Wt : (⟨2, ![K, N]⟩ : Shape).Idx → EReal)
    (r c : ℕ) : pdot X Wt r c 0 = 0 := by
  unfold pdot
  rw [Finset.range_zero, Finset.sum_empty]

/-- One more block of `d` contraction positions adds that block's products. -/
theorem pdot_add {M K N : ℕ} (X : (⟨2, ![M, K]⟩ : Shape).Idx → EReal) (Wt : (⟨2, ![K, N]⟩ : Shape).Idx → EReal)
    (r c n d : ℕ) :
    pdot X Wt r c (n + d) = pdot X Wt r c n + ∑ k : Fin d, at2 X r (n + k.val) * at2 Wt (n + k.val) c := by
  unfold pdot
  rw [Finset.sum_range_add]
  exact congrArg _ (Finset.sum_range fun x => at2 X r (n + x) * at2 Wt (n + x) c)

/-- The first block alone. -/
theorem pdot_block {M K N : ℕ} (X : (⟨2, ![M, K]⟩ : Shape).Idx → EReal) (Wt : (⟨2, ![K, N]⟩ : Shape).Idx → EReal)
    (r c d : ℕ) :
    pdot X Wt r c d = ∑ k : Fin d, at2 X r k.val * at2 Wt k.val c := by
  unfold pdot
  rw [Finset.sum_range]

/-- The layer: entry `(r, c)` is the whole inner product of row `r` of `X` with column `c` of `Wt`, plus the
    bias at `c`. -/
def layer {M K N : ℕ} (X : (⟨2, ![M, K]⟩ : Shape).Idx → EReal) (Wt : (⟨2, ![K, N]⟩ : Shape).Idx → EReal)
    (Bv : (⟨2, ![1, N]⟩ : Shape).Idx → EReal) : (⟨2, ![M, N]⟩ : Shape).Idx → EReal :=
  fun i => pdot X Wt (i 0).val (i 1).val K + at2 Bv 0 (i 1).val

/-- The layer at coordinates. -/
theorem layer_ix2 {M K N : ℕ} (X : (⟨2, ![M, K]⟩ : Shape).Idx → EReal) (Wt : (⟨2, ![K, N]⟩ : Shape).Idx → EReal)
    (Bv : (⟨2, ![1, N]⟩ : Shape).Idx → EReal) (r : Fin M) (c : Fin N) :
    layer X Wt Bv (ix2 r c) = pdot X Wt r.val c.val K + at2 Bv 0 c.val := rfl

/-- The whole inner product as a sum over the contraction axis, each factor an entry. -/
theorem pdot_full {M K N : ℕ} (X : (⟨2, ![M, K]⟩ : Shape).Idx → EReal) (Wt : (⟨2, ![K, N]⟩ : Shape).Idx → EReal)
    (r : Fin M) (c : Fin N) :
    pdot X Wt r.val c.val K = ∑ k : Fin K, X (ix2 r k) * Wt (ix2 k c) := by
  rw [pdot_block]
  refine Finset.sum_congr rfl fun k _ => ?_
  rw [at2_ix2 X r k, at2_ix2 Wt k c]

end Cert.LinearBias

end
-- ==== Proof.BlockReads.lean ====
/-
  Where a grid point's input blocks sit in their arrays.

  The grid is [16, 4, 8], row-major: point `t` has row-tile `t / 32`, column-tile `(t / 8) % 4` and contraction
  block `t % 8`.  The left matrix's [1024, 512] block at `t` is rows `1024·(t/32) + p`, columns `512·(t%8) + k`;
  the right matrix's [512, 1024] block is rows `512·(t%8) + k`, columns `1024·((t/8)%4) + r`; the bias row's
  [1, 1024] block is columns `1024·((t/8)%4) + r`; the output tile is rows `1024·(t/32) + p`, columns
  `1024·((t/8)%4) + r`.  (A block's coordinate is always block index × block size + the coordinate inside.)
-/
import proofs.«145793_j85014582657518_1_alg».proof.Proof.Gen.KernelIdeal.Frame
import proofs.«145793_j85014582657518_1_alg».proof.Proof.LinearSpec
import Idealize.ShloMosaic.Lib.ValueIdx
import Idealize.ShloMosaic.Lib.Pipeline.Value

noncomputable section

namespace Cert.KernelIdeal.Blocks

open Cert.KernelIdeal Cert.KernelIdeal.Gen Cert.LinearBias Idealize.ShloMosaic Idealize.ShloMosaic.TcCoe Idealize.ShloMosaic.ValueIdx Idealize.SL.Sem

variable (m : (ℓ : Loc nD τ sig) → Buf (Elt Ideal) ℓ)

/-- The three staged arrays as the kernel region finds them: the left matrix, the right matrix, the bias row. -/
abbrev xarr (c : Dev nD) : Vec Ideal S16384x4096 .bf16 := V m c main_v20
abbrev warr (c : Dev nD) : Vec Ideal S4096x4096 .bf16 := V m c main_v21
abbrev barr (c : Dev nD) : Vec Ideal S1x4096 .f32 := V m c main_v22
/-- Their blocks at grid point `t`. -/
abbrev xblk (c : Dev nD) (t : Fin cfg0.N) : Vec Ideal S1024x512 .bf16 := iblk m c 0 t
abbrev wblk (c : Dev nD) (t : Fin cfg0.N) : Vec Ideal S512x1024 .bf16 := iblk m c 1 t
abbrev bblk (c : Dev nD) (t : Fin cfg0.N) : Vec Ideal S1x1024 .f32 := iblk m c 2 t

/-- The four index maps over the grid, in closed form. -/
theorem index_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4)

theorem lt_N (t : Fin cfg0.N) : t.val < 512 := lt_of_lt_of_eq t.isLt (show cfg0.N = 512 from N_0)

/-- The left block at `(p, k)` is the left matrix at row `1024·(t/32) + p`, column `512·(t%8) + k`. -/
theorem xblk_apply (c : Dev nD) (t : Fin cfg0.N) (p : Fin 1024) (k : Fin 512) :
    xblk m c t (ix2 p k) = at2 (xarr m c) (1024 * (t.val / 32) + p.val) (512 * (t.val % 8) + k.val) := by
  have hN := lt_N t
  rw [at2_of_lt (xarr m c) (show 1024 * (t.val / 32) + p.val < 16384 by omega) (show 512 * (t.val % 8) + k.val < 4096 by omega)]
  show iblk m c 0 t (ix2 p k) = V m c main_v20 _
  unfold iblk
  rw [View.read_apply]
  show V m c main_v20 _ = V m c main_v20 _
  congr 1
  funext a
  apply Fin.ext
  match a with
  | ⟨0, _⟩ => show win0_0.index t 0 * 1024 + 1 * p.val = 1024 * (t.val / 32) + p.val; rw [(index_facts t).1]; omega
  | ⟨1, _⟩ => show win0_0.index t 1 * 512 + 1 * k.val = 512 * (t.val % 8) + k.val; rw [(index_facts t).2.1]; omega

/-- The right block at `(k, r)` is the right matrix at row `512·(t%8) + k`, column `1024·((t/8)%4) + r`. -/
theorem wblk_apply (c : Dev nD) (t : Fin cfg0.N) (k : Fin 512) (r : Fin 1024) :
    wblk m c t (ix2 k r) = at2 (warr m c) (512 * (t.val % 8) + k.val) (1024 * (t.val / 8 % 4) + r.val) := by
  have hN := lt_N t
  rw [at2_of_lt (warr m c) (show 512 * (t.val % 8) + k.val < 4096 by omega) (show 1024 * (t.val / 8 % 4) + r.val < 4096 by omega)]
  show iblk m c 1 t (ix2 k r) = V m c main_v21 _
  unfold iblk
  rw [View.read_apply]
  show V m c main_v21 _ = V m c main_v21 _
  congr 1
  funext a
  apply Fin.ext
  match a with
  | ⟨0, _⟩ => show win0_1.index t 0 * 512 + 1 * k.val = 512 * (t.val % 8) + k.val; rw [(index_facts t).2.2.1]; omega
  | ⟨1, _⟩ => show win0_1.index t 1 * 1024 + 1 * r.val = 1024 * (t.val / 8 % 4) + r.val; rw [(index_facts t).2.2.2.1]; omega

/-- The bias block at `(0, r)` is the bias row at column `1024·((t/8)%4) + r`. -/
theorem bblk_apply (c : Dev nD) (t : Fin cfg0.N) (r : Fin 1024) :
    bblk m c t (ix2 (0 : Fin 1) r) = at2 (barr m c) 0 (1024 * (t.val / 8 % 4) + r.val) := by
  have hN := lt_N t
  rw [at2_of_lt (barr m c) (show 0 < 1 by omega) (show 1024 * (t.val / 8 % 4) + r.val < 4096 by omega)]
  show iblk m c 2 t (ix2 (0 : Fin 1) r) = V m c main_v22 _
  unfold iblk
  rw [View.read_apply]
  show V m c main_v22 _ = V m c main_v22 _
  congr 1
  funext a
  apply Fin.ext
  match a with
  | ⟨0, _⟩ => show win0_2.index t 0 * 1 + 1 * 0 = 0; rw [(index_facts t).2.2.2.2.1]
  | ⟨1, _⟩ => show win0_2.index t 1 * 1024 + 1 * r.val = 1024 * (t.val / 8 % 4) + r.val; rw [(index_facts t).2.2.2.2.2.1]; omega

end Cert.KernelIdeal.Blocks

end
-- ==== Proof.BodyAtIndex.lean ====
/-
  The kernel body's three stored values, entry by entry, at the ideal instance.

  One grid point's body stores: a zero tile into the accumulator (at the first contraction block only); the
  accumulator plus the product of the point's [1024, 512] block of the left matrix with its [512, 1024] block of the
  right matrix; and (at the last contraction block only) the accumulator plus the bias row, broadcast down the rows.
  Read at row `p`, column `r` of the [1024, 1024] tile these are, over the extended reals:
    zero;  `acc[p, r] + Σ_{k < 512} a[p, k] · b[k, r]`;  `acc[p, r] + bias[0, r]`.
  The matrix unit's product into a zero accumulator is the plain sum of products (its zero start is the additive
  identity), and the identity shape casts around it do nothing.
-/
import proofs.«145793_j85014582657518_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand positions: rows of the left block, columns of the right block, one contracted axis -/

theorem lhs_tile_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_tile_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_tile_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_tile_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The tile product into a zero accumulator, at row `p`, column `r`: the sum over the 512 contracted positions. -/
theorem tile_product_apply (a : FVec Ideal S1024x512 .bf16) (b : FVec Ideal S512x1024 .bf16) (p r : Fin 1024) :
    matmul (F := Ideal) dot_S1024x512_S512x1024_S1024x1024_1_0_0_1_n_n none a b (constant (F := Ideal) S1024x1024 .f32 0x00000000#32) (ix2 p r)
      = ∑ k : Fin 512, a (ix2 p k) * b (ix2 k r) := by
  show FloatOps.matmul _ _ _ _ _ _ = _
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p r) ((ValueIdx.contrEquiv1 dot_S1024x512_S512x1024_S1024x1024_1_0_0_1_n_n 512 rfl rfl).symm k) = ix2 p k := funext fun x => Fin.ext (by
    match x with
    | ⟨0, _⟩ => exact lhs_tile_0 _ _
    | ⟨1, _⟩ => exact (lhs_tile_1 _ _).trans hk)
  have er : dot_S1024x512_S512x1024_S1024x1024_1_0_0_1_n_n.rhsIdx (ix2 p r) ((ValueIdx.contrEquiv1 dot_S1024x512_S512x1024_S1024x1024_1_0_0_1_n_n 512 rfl rfl).symm k) = ix2 k r := funext fun x => Fin.ext (by
    match x with
    | ⟨0, _⟩ => exact (rhs_tile_0 _ _).trans hk
    | ⟨1, _⟩ => exact rhs_tile_1 _ _)
  rw [el, er]

/-! ## The three stored values -/

/-- The reset value is zero everywhere. -/
theorem reset_apply (p r : Fin 1024) : k0_pay1 (F := Ideal) (ix2 p r) = 0 := by
  unfold k0_pay1
  simp only [shapeCast_self]
  show Ideal.ofBits .f32 0x00000000#32 = 0
  exact Ideal.ofBits_zero_f32

/-- The accumulation step: the accumulator plus this block's sum of products. -/
theorem step_apply (acc : Vec Ideal S1024x1024 .f32) (a : Vec Ideal S1024x512 .bf16) (b : Vec Ideal S512x1024 .bf16)
    (p r : Fin 1024) :
    k0_pay2 (F := Ideal) acc a b (ix2 p r) = acc (ix2 p r) + ∑ k : Fin 512, a (ix2 p k) * b (ix2 k r) := by
  unfold k0_pay2
  simp only [shapeCast_self]
  exact congrArg (acc (ix2 p r) + ·) (tile_product_apply a b p r)

/-- The epilogue: the accumulator plus the bias of the column. -/
theorem bias_apply (acc : Vec Ideal S1024x1024 .f32) (bias : Vec Ideal S1x1024 .f32) (p r : Fin 1024) :
    k0_pay3 (F := Ideal) acc bias (ix2 p r) = acc (ix2 p r) + bias (ix2 (0 : Fin 1) r) := by
  unfold k0_pay3
  simp only [shapeCast_self]
  refine congrArg (acc (ix2 p r) + ·) ?_
  exact broadcastTo_apply bias broadcasts_S1x1024_S1024x1024 (ix2 p r) (ix2 (0 : Fin 1) r) (fun x => match x with
    | ⟨0, _⟩ => by show (0 : ℕ) = if (1 : ℕ) = 1 then 0 else _; rw [if_pos rfl]
    | ⟨1, _⟩ => by show r.val = if (1024 : ℕ) = 1 then 0 else r.val; rw [if_neg (by decide)])

end Cert.KernelIdeal.Body

end
-- ==== Proof.BodyPieces.lean ====
/-
  What one run of the kernel body leaves behind, as values of its inputs.

  The body has three control cases along the contraction axis of the grid: the FIRST block (the accumulator is
  zeroed, then the block's product is added), a MIDDLE block (the product is added to what the accumulator held) and
  the LAST block (the same, and then the accumulator plus the bias is stored to the output tile).  Every store
  covers its whole tile, so what a buffer holds after the body is the value of the last store into it, and a load of
  the accumulator after a store reads that store's value.  Hence, with `a`, `b`, `bias` the point's input blocks and
  `acc` the accumulator before the body:
    first block:   accumulator := step (reset) a b
    middle block:  accumulator := step acc a b
    last block:    accumulator := step acc a b,   output tile := epilogue (step acc a b) bias
  where `reset`, `step`, `epilogue` are the body's three stored values.  All four statements hold for any float
  instance: they are about which value lands where, not about arithmetic.
-/
import proofs.«145793_j85014582657518_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- Every access of the body starts at the tile's origin. -/
theorem hz : (![0, 0] : Fin 2 → Nat) = fun _ => 0 := funext fun a => by fin_cases a <;> rfl

/-- First contraction block: the accumulator ends at the block's product added to the reset value. -/
theorem acc_first (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .bf16) (x1 : Vec F S512x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A; dsimp only; sl_unfold_words
  rw [View.canon_cons_unit_zero (S := S1024x1024) hz]
  simp only [View.readAt_eq_ld, harg3.read_unread, harg4.read_unread, harg5.read_unread, harg7.read_unread, View.readCov_unit_zero (S := S1024x1024) _ hz, View.ld_unit_zero (S := S1024x1024) hz, View.ld_unit_zero (S := S1024x512) hz, View.ld_unit_zero (S := S512x1024) hz, View.ld_unit_zero (S := S1x1024) hz]

/-- A middle contraction block: the accumulator ends at the block's product added to what it held. -/
theorem acc_middle (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .bf16) (x1 : Vec F S512x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B; dsimp only; sl_unfold_words
  rw [View.canon_unit_zero (S := S1024x1024) hz]
  simp only [View.readAt_eq_ld, harg3.read_unread, harg4.read_unread, harg5.read_unread, harg7.read_unread, View.readCov_unit_zero (S := S1024x1024) _ hz, View.ld_unit_zero (S := S1024x1024) hz, View.ld_unit_zero (S := S1024x512) hz, View.ld_unit_zero (S := S512x1024) hz, View.ld_unit_zero (S := S1x1024) hz]

/-- The last contraction block: the accumulator ends as in a middle block; -/
theorem acc_last (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S512x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C; dsimp only; sl_unfold_words
  rw [View.canon_unit_zero (S := S1024x1024) hz]
  simp only [View.readAt_eq_ld, harg3.read_unread, harg4.read_unread, harg5.read_unread, harg7.read_unread, View.readCov_unit_zero (S := S1024x1024) _ hz, View.ld_unit_zero (S := S1024x1024) hz, View.ld_unit_zero (S := S1024x512) hz, View.ld_unit_zero (S := S512x1024) hz, View.ld_unit_zero (S := S1x1024) hz]

/-- and the output tile ends at that accumulator plus the bias. -/
theorem tile_last (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S512x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C; dsimp only; sl_unfold_words
  rw [View.canon_unit_zero (S := S1024x1024) hz]
  simp only [View.readAt_eq_ld, harg3.read_unread, harg4.read_unread, harg5.read_unread, harg7.read_unread, View.readCov_unit_zero (S := S1024x1024) _ hz, View.ld_unit_zero (S := S1024x1024) hz, View.ld_unit_zero (S := S1024x512) hz, View.ld_unit_zero (S := S512x1024) hz, View.ld_unit_zero (S := S1x1024) hz]

end Cert.KernelIdeal.Body

end
-- ==== Proof.Accumulate.lean ====
/-
  What the accumulator holds after each grid point, and what the last contraction block writes to the output tile.

  Along the grid's contraction axis (eight consecutive points for one output tile) the accumulator is zeroed at the
  first point and gains one 512-wide block of products per point.  So after point `t` its entry `(p, r)` is the inner
  product of row `1024·(t/32) + p` of the left matrix with column `1024·((t/8)%4) + r` of the right matrix over the
  first `512·(t%8 + 1)` contraction positions: by induction on the point, each step splitting the range of a finite
  sum (`pdot_add`).  At the last of the eight points all 4096 positions are in, and the output tile is that inner
  product plus the bias of the column.
-/
import proofs.«145793_j85014582657518_1_alg».proof.Proof.Gen.KernelIdeal.Frame
import proofs.«145793_j85014582657518_1_alg».proof.Proof.LinearSpec
import proofs.«145793_j85014582657518_1_alg».proof.Proof.BodyAtIndex
import proofs.«145793_j85014582657518_1_alg».proof.Proof.BodyPieces
import proofs.«145793_j85014582657518_1_alg».proof.Proof.BlockReads

noncomputable section

open scoped BigOperators

namespace Cert.KernelIdeal.Accumulate

open Cert.KernelIdeal Cert.KernelIdeal.Gen Cert.KernelIdeal.Body Cert.KernelIdeal.Blocks Cert.LinearBias
open Idealize.ShloMosaic Idealize.ShloMosaic.TcCoe Idealize.ShloMosaic.ValueIdx Idealize.SL.Sem

/-- One more 512-wide block of the contraction: the inner product over the first `512·q` positions plus block `q`'s
    products is the inner product over the first `512·(q + 1)` (the earlier part may be given at equal coordinates). -/
theorem pdot_step {M K N : ℕ} (X : (⟨2, ![M, K]⟩ : Shape).Idx → EReal) (Wt : (⟨2, ![K, N]⟩ : Shape).Idx → EReal)
    (row col q row' col' n' : ℕ) (hr : row' = row) (hc : col' = col) (hn : n' = 512 * q) :
    pdot X Wt row' col' n' + ∑ k : Fin 512, at2 X row (512 * q + k.val) * at2 Wt (512 * q + k.val) col
      = pdot X Wt row col (512 * (q + 1)) := by
  subst hr hc hn
  rw [Nat.mul_succ]
  exact (pdot_add X Wt row' col' (512 * q) 512).symm

variable (m : (ℓ : Loc nD τ sig) → Buf (Elt Ideal) ℓ)

/-- The block's sum of products, with each factor read off its whole array. -/
theorem block_products (c : Dev nD) (t : Fin cfg0.N) (p r : Fin 1024) :
    ∑ k : Fin 512, xblk m c t (ix2 p k) * wblk m c t (ix2 k r)
      = ∑ k : Fin 512, at2 (xarr m c) (1024 * (t.val / 32) + p.val) (512 * (t.val % 8) + k.val)
          * at2 (warr m c) (512 * (t.val % 8) + k.val) (1024 * (t.val / 8 % 4) + r.val) :=
  Finset.sum_congr rfl fun k _ => by rw [xblk_apply m c t p k, wblk_apply m c t k r]

/-- THE ACCUMULATOR after point `t`: the inner product over the contraction positions seen so far. -/
theorem acc_after (c : Dev nD) : ∀ (n : ℕ) (t : Fin cfg0.N), t.val = n → ∀ (p r : Fin 1024),
    (outsAt0 m c t.val t.isLt).2 (ix2 p r)
      = pdot (xarr m c) (warr m c) (1024 * (t.val / 32) + p.val) (1024 * (t.val / 8 % 4) + r.val) (512 * (t.val % 8 + 1)) := by
  intro n
  induction n using Nat.strong_induction_on with
  | _ n ih =>
  intro t ht p r
  have hN := lt_N t
  by_cases h0 : t.val % 8 = 0
  · -- first contraction block: reset, then this block's products
    have h1 : ¬t.val % 8 = 7 := by omega
    rw [outsAt0_A m c t h0 h1]; dsimp only
    refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p r)).trans ?_
    refine (step_apply (k0_pay1 (F := Ideal)) (xblk m c t) (wblk m c t) p r).trans ?_
    rw [reset_apply, block_products m c t p r, ← pdot_zero (xarr m c) (warr m c) (1024 * (t.val / 32) + p.val) (1024 * (t.val / 8 % 4) + r.val)]
    exact pdot_step (xarr m c) (warr m c) _ _ (t.val % 8) _ _ 0 rfl rfl (by omega)
  · -- a later block: what the point before left, plus this block's products
    have hprev : t.val - 1 < cfg0.N := Nat.lt_of_le_of_lt (Nat.sub_le _ _) t.isLt
    have ihp := ih (t.val - 1) (by omega) ⟨t.val - 1, hprev⟩ rfl p r
    dsimp only at ihp
    have close : (outsAt0 m c (t.val - 1) hprev).2 (ix2 p r)
        + ∑ k : Fin 512, xblk m c t (ix2 p k) * wblk m c t (ix2 k r)
        = pdot (xarr m c) (warr m c) (1024 * (t.val / 32) + p.val) (1024 * (t.val / 8 % 4) + r.val) (512 * (t.val % 8 + 1)) := by
      rw [ihp, block_products m c t p r]
      exact pdot_step (xarr m c) (warr m c) _ _ (t.val % 8) _ _ _ (by omega) (by omega) (by omega)
    by_cases h1 : t.val % 8 = 7
    · rw [outsAt0_C m c t h0 h1]; dsimp only
      refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hprev).2) (ix2 p r)).trans ?_
      refine (step_apply (outsAt0 m c (t.val - 1) hprev).2 (xblk m c t) (wblk m c t) p r).trans ?_
      exact close
    · rw [outsAt0_B m c t h0 h1]; dsimp only
      refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) hprev).2) (ix2 p r)).trans ?_
      refine (step_apply (outsAt0 m c (t.val - 1) hprev).2 (xblk m c t) (wblk m c t) p r).trans ?_
      exact close

/-- THE OUTPUT TILE at a last contraction block: the whole inner product plus the column's bias. -/
theorem tile_after (c : Dev nD) (t : Fin cfg0.N) (h0 : ¬t.val % 8 = 0) (h1 : t.val % 8 = 7) (p r : Fin 1024) :
    (outsAt0 m c t.val t.isLt).1 (ix2 p r)
      = pdot (xarr m c) (warr m c) (1024 * (t.val / 32) + p.val) (1024 * (t.val / 8 % 4) + r.val) 4096
        + at2 (barr m c) 0 (1024 * (t.val / 8 % 4) + r.val) := by
  have hprev : t.val - 1 < cfg0.N := Nat.lt_of_le_of_lt (Nat.sub_le _ _) t.isLt
  have hacc : (outsAt0 m c t.val t.isLt).2 = k0_pay2 (outsAt0 m c (t.val - 1) hprev).2 (xblk m c t) (wblk m c t) := by
    rw [outsAt0_C m c t h0 h1]; dsimp only
    exact acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hprev).2
  have htile : (outsAt0 m c t.val t.isLt).1 = k0_pay3 (k0_pay2 (outsAt0 m c (t.val - 1) hprev).2 (xblk m c t) (wblk m c t)) (bblk m c t) := by
    rw [outsAt0_C m c t h0 h1]; dsimp only
    exact tile_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hprev).2
  refine (congrFun htile (ix2 p r)).trans ?_
  refine (bias_apply _ (bblk m c t) p r).trans ?_
  rw [bblk_apply m c t r]
  refine congrArg (· + at2 (barr m c) 0 (1024 * (t.val / 8 % 4) + r.val)) ?_
  refine (congrFun hacc.symm (ix2 p r)).trans ?_
  rw [acc_after m c t.val t rfl p r, h1]

end Cert.KernelIdeal.Accumulate

end
-- ==== Proof.KernelResult.lean ====
/-
  The kernel's result array.

  The output is written back once per output tile, at the last of the tile's eight contraction points, and the
  [1024, 1024] tiles of the 16 × 4 points that write back tile the [16384, 4096] array.  What is written at such a
  point is, entry by entry, the linear layer (`LinearBias.layer`) of the three staged arrays at the entry's position
  in the whole array; so after the run the result array IS the layer of the staged arrays.
-/
import proofs.«145793_j85014582657518_1_alg».proof.Proof.Gen.KernelIdeal.Value
import proofs.«145793_j85014582657518_1_alg».proof.Proof.LinearSpec
import proofs.«145793_j85014582657518_1_alg».proof.Proof.BlockReads
import proofs.«145793_j85014582657518_1_alg».proof.Proof.Accumulate

noncomputable section

namespace Cert.KernelIdeal.Result

open Cert.KernelIdeal Cert.KernelIdeal.Gen Cert.KernelIdeal.Blocks Cert.KernelIdeal.Accumulate Cert.LinearBias
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result: the linear layer of the staged left matrix, right matrix and bias row. -/
abbrev result (c : Dev nD) : Buf (Elt Ideal) ((c : Thread nD τ).loc main_v23) :=
  layer (xarr m c) (warr m c) (barr m c)

/-- An entry of the tile written at a last contraction block is the result at the entry's place in the whole array. -/
theorem tile_entry (c : Dev nD) (t : Fin cfg0.N) (h0 : ¬t.val % 8 = 0) (h1 : t.val % 8 = 7) (y : S1024x1024.Idx)
    (i : S16384x4096.Idx) (hi0 : (i 0).val = 1024 * (t.val / 32) + (y 0).val) (hi1 : (i 1).val = 1024 * (t.val / 8 % 4) + (y 1).val) :
    (outsAt0 m c t.val t.isLt).1 y = result m c i := by
  obtain ⟨p, r, rfl⟩ : ∃ (p : Fin 1024) (r : Fin 1024), y = ix2 p r := ⟨y 0, y 1, eq_ix2 y⟩
  rw [tile_after m c t h0 h1 p r]
  show _ = pdot (xarr m c) (warr m c) (i 0).val (i 1).val 4096 + at2 (barr m c) 0 (i 1).val
  rw [hi0, hi1]

/-- WHAT A WRITE-BACK WRITES is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  rw [Value.flushed3]
  funext j
  show (outsAt0 m c t.val t.isLt).1 j = result m c (((cfg0.win 3).blk t).view.emb j)
  refine tile_entry m c t h0 h1 j _ ?_ ?_
  · show win0_3.index t 0 * 1024 + 1 * (j 0).val = 1024 * (t.val / 32) + (j 0).val
    rw [(index_facts t).2.2.2.2.2.2.1]; omega
  · show win0_3.index t 1 * 1024 + 1 * (j 1).val = 1024 * (t.val / 8 % 4) + (j 1).val
    rw [(index_facts t).2.2.2.2.2.2.2]; omega

/-- An index of the array is in point `t`'s output block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v23).slice (win0_3.rect t)).set ↔ _
  rw [View.set_slice_whole, Rect.mem_set_unit]
  exact Iff.rfl

/-- THE COVER: entry `(R, C)` is written back by the point of row tile `R / 1024`, column tile `C / 1024` and the last
    contraction block. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨n, hn⟩ : ∃ n : ℕ, n = 32 * ((i 0).val / 1024) + 8 * ((i 1).val / 1024) + 7 := ⟨_, rfl⟩
  have hlt : n < cfg0.N := by rw [show cfg0.N = 512 from N_0]; omega
  refine ⟨⟨n, hlt⟩, (flush0_3 ⟨n, hlt⟩).mpr (by show n % 8 = 7; omega), ?_⟩
  rw [mem_blk]
  intro a
  match a with
  | ⟨0, _⟩ =>
    show win0_3.index ⟨n, hlt⟩ 0 * 1024 ≤ (i 0).val ∧ (i 0).val < win0_3.index ⟨n, hlt⟩ 0 * 1024 + 1024
    rw [(index_facts ⟨n, hlt⟩).2.2.2.2.2.2.1]
    show n / 32 * 1024 ≤ (i 0).val ∧ (i 0).val < n / 32 * 1024 + 1024
    omega
  | ⟨1, _⟩ =>
    show win0_3.index ⟨n, hlt⟩ 1 * 1024 ≤ (i 1).val ∧ (i 1).val < win0_3.index ⟨n, hlt⟩ 1 * 1024 + 1024
    rw [(index_facts ⟨n, hlt⟩).2.2.2.2.2.2.2]
    show n / 8 % 4 * 1024 ≤ (i 1).val ∧ (i 1).val < n / 8 % 4 * 1024 + 1024
    omega

/-- THE ARRAY after the run is the result. -/
theorem final (c : Dev nD) : (dats m 0 c).arrAt 3 cfg0.N = result m c :=
  (dats m 0 c).arrAt_eq_of_cover 3 (result m c) (flushed_eq m c) cover

/-- The kernel's run: the result array at the layer of the staged arrays, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.StagedOperands.lean ====
/-
  The three arrays the kernel region finds, in terms of the program's arguments, at the ideal instance.

  Before the region the program builds the weight matrix `W[o, i] = (v ++ v)[o + i]` by a gather (the reference
  builds the SAME matrix by the same operations: it is kept as one opaque term here and never opened), transposes
  it, rounds the left matrix `x` and the transposed weight to bf16 (the identity over the extended reals) and views
  the bias `b` as a [1, 4096] row.  Hence, entry by entry:
    left matrix  [r, k] = x[r, k];   right matrix [k, c] = W[c, k];   bias row [0, c] = b[c].
-/
import proofs.«145793_j85014582657518_1_alg».proof.Proof.Gen.KernelIdeal.Frame
import proofs.«145793_j85014582657518_1_alg».proof.Proof.Gen.ReferenceIdeal.Read
import proofs.«145793_j85014582657518_1_alg».proof.Proof.LinearSpec
import proofs.«145793_j85014582657518_1_alg».proof.Proof.BlockReads
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Operands

open Cert.KernelIdeal Cert.KernelIdeal.Gen Cert.KernelIdeal.Blocks Cert.LinearBias
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The weight matrix `W[o, i] = (v ++ v)[o + i]` as the reference's own stage spells it (the kernel program's host
    prefix is the same chain of operations). -/
def weight (v : FVec Ideal S4096 .f32) : FVec Ideal S4096x4096 .f32 :=
  Cert.ReferenceIdeal.Read.val_main_v18 (F := Ideal) v

set_option maxHeartbeats 2000000 in
/-- The staged left matrix is `x` rounded to bf16. -/
theorem xarr_eq (c : Dev nD) :
    xarr m c = truncf (F := Ideal) (s := S16384x4096) .bf16 (m ((c : Thread nD τ).loc main_arg0)) bitsLt_bf16_f32 := by
  show V m c main_v20 = _
  dsimp only [V, hostOps0]; after_results <;> rfl

set_option maxHeartbeats 2000000 in
/-- The staged bias row is `b` viewed as [1, 4096]. -/
theorem barr_eq (c : Dev nD) :
    barr m c = shapeCast S1x4096 (m ((c : Thread nD τ).loc main_arg2)) shapeCasts_S4096_S1x4096 := by
  show V m c main_v22 = _
  dsimp only [V, hostOps0]; after_results <;> rfl

set_option maxHeartbeats 4000000 in
/-- The staged right matrix is the weight matrix, transposed and rounded to bf16. -/
theorem warr_eq (c : Dev nD) :
    warr m c = truncf (F := Ideal) (s := S4096x4096) .bf16 (transpose S4096x4096 [1, 0] (weight (m ((c : Thread nD τ).loc main_arg1))) transposes_S4096x4096_S4096x4096_1_0) bitsLt_bf16_f32 := by
  unfold weight
  show V m c main_v21 = _
  dsimp only [V, hostOps0]; after_results <;> rfl

/-- Left matrix, entry by entry. -/
theorem xarr_apply (c : Dev nD) (a : Fin 16384) (b : Fin 4096) :
    xarr m c (ix2 a b) = m ((c : Thread nD τ).loc main_arg0) (ix2 a b) := by
  exact (congrFun (xarr_eq m c) (ix2 a b)).trans rfl

/-- Right matrix, entry by entry: the weight with its coordinates swapped. -/
theorem warr_apply (c : Dev nD) (k : Fin 4096) (o : Fin 4096) :
    warr m c (ix2 k o) = weight (m ((c : Thread nD τ).loc main_arg1)) (ix2 o k) := by
  refine (congrFun (warr_eq m c) (ix2 k o)).trans ?_
  refine (truncf_apply (transpose S4096x4096 [1, 0] (weight (m ((c : Thread nD τ).loc main_arg1))) transposes_S4096x4096_S4096x4096_1_0) bitsLt_bf16_f32 (ix2 k o)).trans ?_
  exact transpose_ix2_apply (weight (m ((c : Thread nD τ).loc main_arg1))) transposes_S4096x4096_S4096x4096_1_0 k o

/-- Bias row, entry by entry. -/
theorem barr_apply (c : Dev nD) (o : Fin 4096) :
    at2 (barr m c) 0 o.val = m ((c : Thread nD τ).loc main_arg2) (ix1 o) := by
  rw [at2_of_lt (barr m c) Nat.one_pos o.isLt, barr_eq]
  exact shapeCast_a_1a_apply (m ((c : Thread nD τ).loc main_arg2)) shapeCasts_S4096_S1x4096 ⟨0, Nat.one_pos⟩ ⟨o.val, o.isLt⟩

end Cert.KernelIdeal.Operands

end
-- ==== Proof.ReferenceLayer.lean ====
/-
  The reference computes the same linear layer.

  The reference is `einsum('bi,oi->bo', x, W) + b`: entry `(r, c)` is `Σ_k x[r, k] · W[c, k] + b[c]`.  For any three
  arrays that read as `X[r, k] = x[r, k]`, `Wt[k, c] = W[c, k]` and `Bv[0, c] = b[c]` this is `LinearBias.layer X Wt Bv`
  entry by entry: the same sum over the 4096 contraction positions, the same bias.
-/
import proofs.«145793_j85014582657518_1_alg».proof.Proof.Gen.ReferenceIdeal.Read
import proofs.«145793_j85014582657518_1_alg».proof.Proof.LinearSpec
import Idealize.ShloMosaic.Lib.ValueIdx

noncomputable section

open scoped BigOperators

namespace Cert.ReferenceIdeal.Layer

open Cert.ReferenceIdeal Cert.ReferenceIdeal.Gen Cert.ReferenceIdeal.Read Cert.LinearBias
open Idealize.ShloMosaic Idealize.ShloMosaic.ValueIdx

/-- The reference's result is the layer of any arrays that read as `x`, the transposed weight and the bias row. -/
theorem result_eq_layer (x0 : FVec Ideal S16384x4096 .f32) (x1 x2 : FVec Ideal S4096 .f32)
    (X : (⟨2, ![16384, 4096]⟩ : Shape).Idx → EReal) (Wt : (⟨2, ![4096, 4096]⟩ : Shape).Idx → EReal)
    (Bv : (⟨2, ![1, 4096]⟩ : Shape).Idx → EReal)
    (hX : ∀ (a : Fin 16384) (b : Fin 4096), X (ix2 a b) = x0 (ix2 a b))
    (hW : ∀ (k o : Fin 4096), Wt (ix2 k o) = val_main_v18 (F := Ideal) x1 (ix2 o k))
    (hB : ∀ o : Fin 4096, at2 Bv 0 o.val = x2 (ix1 o)) :
    val_main_v22 (F := Ideal) x0 x1 x2 = layer X Wt Bv := by
  funext i
  obtain ⟨R, C, rfl⟩ : ∃ (R : Fin 16384) (C : Fin 4096), i = ix2 R C := ⟨i 0, i 1, eq_ix2 i⟩
  rw [val_main_v22_apply, val_main_v19_apply, val_main_v21_apply, val_main_v20_apply, layer_ix2, pdot_full, hB C]
  have el : ∀ k : Fin 4096, lidx_main_v19 (ix2 R C) k = ix2 R k := fun k => funext fun a => Fin.ext (by
    match a with
    | ⟨0, _⟩ => rfl
    | ⟨1, _⟩ => rfl)
  have er : ∀ k : Fin 4096, ridx_main_v19 (ix2 R C) k = ix2 C k := fun k => funext fun a => Fin.ext (by
    match a with
    | ⟨0, _⟩ => rfl
    | ⟨1, _⟩ => rfl)
  have eb : idx_main_v20 (idx_main_v21 (ix2 R C)) = ix1 C := funext fun a => Fin.ext (by
    match a with
    | ⟨0, _⟩ => rfl)
  rw [eb]
  show (∑ k : Fin 4096, _) + _ = _
  refine congrArg (· + x2 (ix1 C)) (Finset.sum_congr rfl fun k _ => ?_)
  rw [el k, er k, hX R k, hW k C]

end Cert.ReferenceIdeal.Layer

end
-- ==== Proof.lean ====
/-
  A Toeplitz-weight linear layer, `x @ W.T + b` with `W[o, i] = (v ++ v)[o + i]`, over f32[16384, 4096]:
  the tiled kernel against the plain einsum.

  THE KERNEL multiplies the bf16-rounded `x` by the bf16-rounded transposed weight on a [16, 4, 8] grid: for each
  [1024, 1024] output tile it walks eight 512-wide blocks of the contraction axis, zeroing an f32 accumulator at the
  first, adding one block's product at each, and at the eighth storing the accumulator plus the bias.  THE REFERENCE
  is `einsum('bi,oi->bo', x, W) + b`.  Both build `W` from `v` by the same host operations, so `W` stays one opaque
  term on both sides.

  Over the extended reals a change of float format is the identity, so the kernel's entry `(r, c)` is
  `((0 + Σ_{k<512} …) + Σ_{512≤k<1024} …) + … + b[c]`, the reference's is `Σ_{k<4096} x[r, k] · W[c, k] + b[c]`, and the
  two are equal by splitting the range of a finite sum (`LinearBias.pdot_add`): associativity of `+` alone, which
  holds at the infinities too, so the precondition is never opened.

  The modules: LinearSpec (the layer and the split of its sum), BodyAtIndex (the body's three stored values entry by
  entry), BodyPieces (which value each control case leaves where), BlockReads (where a point's blocks sit in their
  arrays), Accumulate (the accumulator after each point, by induction; the tile at a last block), KernelResult (the
  write-backs tile the array: the result array), StagedOperands (the staged arrays from the arguments),
  ReferenceLayer (the reference is the same layer).  The three frames are the generated ones; the idealization
  rewrote nothing, so `preserves` is trivial.
-/
import proofs.«145793_j85014582657518_1_alg».proof.Defs
import proofs.«145793_j85014582657518_1_alg».proof.Proof.Gen.Kernel
import proofs.«145793_j85014582657518_1_alg».proof.Proof.Gen.Kernel.Skeleton
import proofs.«145793_j85014582657518_1_alg».proof.Proof.Gen.Kernel.Launch
import proofs.«145793_j85014582657518_1_alg».proof.Proof.Gen.Kernel.Points
import proofs.«145793_j85014582657518_1_alg».proof.Proof.Gen.Kernel.Frame
import proofs.«145793_j85014582657518_1_alg».proof.Proof.Gen.KernelIdeal
import proofs.«145793_j85014582657518_1_alg».proof.Proof.Gen.KernelIdeal.Skeleton
import proofs.«145793_j85014582657518_1_alg».proof.Proof.Gen.KernelIdeal.Launch
import proofs.«145793_j85014582657518_1_alg».proof.Proof.Gen.KernelIdeal.Points
import proofs.«145793_j85014582657518_1_alg».proof.Proof.Gen.KernelIdeal.Frame
import proofs.«145793_j85014582657518_1_alg».proof.Proof.Gen.ReferenceIdeal
import proofs.«145793_j85014582657518_1_alg».proof.Proof.Gen.Pre_finite_inputs
import proofs.«145793_j85014582657518_1_alg».proof.Proof.Gen.KernelIdeal.Value
import proofs.«145793_j85014582657518_1_alg».proof.Proof.Gen.ReferenceIdeal.Run
import proofs.«145793_j85014582657518_1_alg».proof.Proof.Gen.ReferenceIdeal.Read
import proofs.«145793_j85014582657518_1_alg».proof.Proof.KernelResult
import proofs.«145793_j85014582657518_1_alg».proof.Proof.StagedOperands
import proofs.«145793_j85014582657518_1_alg».proof.Proof.ReferenceLayer
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the linear layer of `x`, the transposed weight and the bias row: the kernel's result array
    by `KernelResult.run`, the reference's by its generated run read as that layer. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2]
  exact Cert.ReferenceIdeal.Layer.result_eq_layer _ _ _ _ _ _
    (Cert.KernelIdeal.Operands.xarr_apply m c) (Cert.KernelIdeal.Operands.warr_apply m c) (Cert.KernelIdeal.Operands.barr_apply m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
